-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S4096x8 .f32) (main_arg2 : FVec F S4096 .f32) (main_arg3 : FVec F S1024x4096 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x4096x1024 : Shape := ⟨3, ![4, 4096, 1024]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S8x4096 : Shape := ⟨2, ![8, 4096]⟩
abbrev S4096x1024 : Shape := ⟨2, ![4096, 1024]⟩
abbrev S1x4096 : Shape := ⟨2, ![1, 4096]⟩
abbrev S1x1024 : Shape := ⟨2, ![1, 1024]⟩
abbrev S256x1024 : Shape := ⟨2, ![256, 1024]⟩
abbrev S256x8 : Shape := ⟨2, ![256, 8]⟩
abbrev S256x4096 : Shape := ⟨2, ![256, 4096]⟩

abbrev nBuf : Space → Nat
  | .hbm => 14
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x8, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S16384x1024, .f32⟩
  | .hbm, ⟨6, _⟩ => ⟨S8x4096, .f32⟩
  | .hbm, ⟨7, _⟩ => ⟨S8x4096, .bf16⟩
  | .hbm, ⟨8, _⟩ => ⟨S4096x1024, .f32⟩
  | .hbm, ⟨9, _⟩ => ⟨S4096x1024, .bf16⟩
  | .hbm, ⟨10, _⟩ => ⟨S1x4096, .f32⟩
  | .hbm, ⟨11, _⟩ => ⟨S1x1024, .f32⟩
  | .hbm, ⟨12, _⟩ => ⟨S16384x1024, .f32⟩
  | .hbm, ⟨13, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S8x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  transposes_S4096x8_S8x4096_1_0 : S4096x8.Transposes [1, 0] S8x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S256x1024_o0_0_S256x8 : S256x1024.Slices ![0, 0] S256x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S16384x1024_S4x4096x1024 : S16384x1024.ShapeCasts S4x4096x1024
  dot_S256x8_S8x4096_S256x4096_1_0_0_1_n_n_wf : DotDims.WF S256x8 S8x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .bf16 = 32 ∨ (Rect.block (s := S8x4096) S8x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x4096x8 : Shape := ⟨3, ![4, 4096, 8]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x8, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4x4096x8, .f32⟩
  | .hbm, ⟨6, _⟩ => ⟨S4x4096x8, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x8_S4096x8_S4x4096x4096_2_1_01_0_n_n_wf : DotDims.WF S4x4096x8 S4096x8 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The function both programs compute, per output entry.

  A token's first eight features go through the cosine; a first dense layer with weights `W1` and bias `b1` and a
  rectifier give the 4096 hidden units; a second dense layer with weights `W2` and bias `b2` gives the output entry:

      out = (∑_f max ((∑_k cos (x k) · W1 f k) + b1 f, 0) · W2 f) + b2.

  It is stated here over plain functions of the small index types, so that each program's arrays, whatever their
  layout (a token axis flattened or not, a weight matrix transposed or not), are read into it by composing with the
  layout's index map. The rectifier's zero is kept as the float word both programs print.
-/
import Idealize.ShloMosaic.PureOps.Ideal
import Idealize.ShloMosaic.Lib.ValueIdx

noncomputable section

namespace Cert.FfnSpec

open Idealize.ShloMosaic Idealize.ShloMosaic.ValueIdx

/-- The first eight of a row's 1024 features. -/
abbrev lane (k : Fin 8) : Fin 1024 := ⟨k.val, Nat.lt_of_lt_of_le k.isLt (by decide)⟩

/-- One hidden unit: the rectified affine image of the cosines of the token's eight features. -/
def hiddenUnit (xr : Fin 8 → EReal) (w1 : Fin 8 → EReal) (b1 : EReal) : EReal :=
  max ((∑ k : Fin 8, Ideal.cos (xr k) * w1 k) + b1) (Ideal.ofBits .f32 0x00000000#32)

/-- One output entry: the affine image of the token's 4096 hidden units. -/
def entry (xr : Fin 8 → EReal) (w1 : Fin 4096 → Fin 8 → EReal) (b1 : Fin 4096 → EReal) (w2 : Fin 4096 → EReal) (b2 : EReal) : EReal :=
  (∑ f : Fin 4096, hiddenUnit xr (w1 f) (b1 f) * w2 f) + b2

/-- An entry depends on its five readings pointwise. -/
theorem entry_congr {xr xr' : Fin 8 → EReal} {w1 w1' : Fin 4096 → Fin 8 → EReal} {b1 b1' : Fin 4096 → EReal}
    {w2 w2' : Fin 4096 → EReal} {b2 b2' : EReal} (h0 : ∀ k, xr k = xr' k) (h1 : ∀ f k, w1 f k = w1' f k)
    (h2 : ∀ f, b1 f = b1' f) (h3 : ∀ f, w2 f = w2' f) (h4 : b2 = b2') :
    entry xr w1 b1 w2 b2 = entry xr' w1' b1' w2' b2' := by
  rw [funext h0, funext fun f => funext (h1 f), funext h2, funext h3, h4]

/-- The whole result, over the arrays as the programs are given them: entry `(b, s, e)` reads token `(b, s)`'s first
    eight features, all of `W1` and `b1`, row `e` of `W2` and entry `e` of `b2`. -/
def result (x : (⟨3, ![4, 4096, 1024]⟩ : Shape).Idx → EReal) (W1 : (⟨2, ![4096, 8]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) : (⟨3, ![4, 4096, 1024]⟩ : Shape).Idx → EReal := fun i =>
  entry (fun k => x (ix3 (i 0) (i 1) (lane k))) (fun f k => W1 (ix2 f k)) (fun f => b1 (ix1 f)) (fun f => W2 (ix2 (i 2) f)) (b2 (ix1 (i 2)))

end Cert.FfnSpec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelPayload.lean ====
/-
  The kernel body's one stored value, read at an entry.

  The body loads a 256-row block of tokens, the whole transposed first weight matrix, the first bias as a row, the
  whole transposed second weight matrix and the second bias as a row. Its stored value at `(p, q)` is

      (∑_f max ((∑_k cos (x[p, k]) · w1[k, f]) + b1[0, f], 0) · w2[f, q]) + b2[0, q]:

  the two matrix products into zero accumulators are plain sums over the contracted axis, the narrowing casts are the
  identity over the extended reals, a bias row is broadcast down the rows, and the slice keeps columns 0 to 7.
-/
import proofs.«135403_j65481071410281_1_alg».proof.Proof.Gen.KernelIdeal.Skeleton
import proofs.«135403_j65481071410281_1_alg».proof.Proof.Spec
import proofs.«135403_j65481071410281_1_alg».proof.Proof.LibMatmulAt
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.FfnSpec

/-! ## Where the two products read their operands -/

theorem d1_lhs0 (i : S256x4096.Idx) (q : dot_S256x8_S8x4096_S256x4096_1_0_0_1_n_n.contr.Idx) :
    (dot_S256x8_S8x4096_S256x4096_1_0_0_1_n_n.lhsIdx i q 0).val = (i 0).val := by
  unfold DotDims.lhsIdx
  rw [dif_neg (show ¬(0 : Fin S256x8.rank) ∈ dot_S256x8_S8x4096_S256x4096_1_0_0_1_n_n.lhsBatch by decide), dif_pos (show (0 : Fin S256x8.rank) ∈ dot_S256x8_S8x4096_S256x4096_1_0_0_1_n_n.lhsNonContracting by decide)]
  rfl
theorem d1_lhs1 (i : S256x4096.Idx) (q : dot_S256x8_S8x4096_S256x4096_1_0_0_1_n_n.contr.Idx) :
    (dot_S256x8_S8x4096_S256x4096_1_0_0_1_n_n.lhsIdx i q 1).val = (q ⟨0, by decide⟩).val :=
  dot_S256x8_S8x4096_S256x4096_1_0_0_1_n_n.lhsIdx_val_of_single rfl i q
theorem d1_rhs0 (i : S256x4096.Idx) (q : dot_S256x8_S8x4096_S256x4096_1_0_0_1_n_n.contr.Idx) :
    (dot_S256x8_S8x4096_S256x4096_1_0_0_1_n_n.rhsIdx i q 0).val = (q ⟨0, by decide⟩).val :=
  dot_S256x8_S8x4096_S256x4096_1_0_0_1_n_n.rhsIdx_val_of_single rfl i q
theorem d1_rhs1 (i : S256x4096.Idx) (q : dot_S256x8_S8x4096_S256x4096_1_0_0_1_n_n.contr.Idx) :
    (dot_S256x8_S8x4096_S256x4096_1_0_0_1_n_n.rhsIdx i q 1).val = (i 1).val := by
  unfold DotDims.rhsIdx
  rw [dif_neg (show ¬(1 : Fin S8x4096.rank) ∈ dot_S256x8_S8x4096_S256x4096_1_0_0_1_n_n.rhsBatch by decide), dif_pos (show (1 : Fin S8x4096.rank) ∈ dot_S256x8_S8x4096_S256x4096_1_0_0_1_n_n.rhsNonContracting by decide)]
  rfl

theorem d2_lhs0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem d2_lhs1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem d2_rhs0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem d2_rhs1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The first product, [256 × 8] · [8 × 4096] into zero, at `(p, f)`: the sum over the eight features. -/
theorem first_product_at (l : FVec Ideal S256x8 .bf16) (r : FVec Ideal S8x4096 .bf16) (p : Fin 256) (f : Fin 4096) :
    matmul dot_S256x8_S8x4096_S256x4096_1_0_0_1_n_n none l r (constant (F := Ideal) S256x4096 .f32 0x00000000#32) (ix2 p f)
      = ∑ k : Fin 8, l (ix2 p k) * r (ix2 k f) :=
  MatmulAt.matmul_zero_at dot_S256x8_S8x4096_S256x4096_1_0_0_1_n_n rfl rfl d1_lhs0 d1_lhs1 d1_rhs0 d1_rhs1 none l r p f

/-- The second product, [256 × 4096] · [4096 × 1024] into zero, at `(p, q)`: the sum over the hidden units. -/
theorem second_product_at (l : FVec Ideal S256x4096 .bf16) (r : FVec Ideal S4096x1024 .bf16) (p : Fin 256) (q : Fin 1024) :
    matmul dot_S256x4096_S4096x1024_S256x1024_1_0_0_1_n_n none l r (constant (F := Ideal) S256x1024 .f32 0x00000000#32) (ix2 p q)
      = ∑ f : Fin 4096, l (ix2 p f) * r (ix2 f q) :=
  MatmulAt.matmul_zero_at dot_S256x4096_S4096x1024_S256x1024_1_0_0_1_n_n rfl rfl d2_lhs0 d2_lhs1 d2_rhs0 d2_rhs1 none l r p q

/-! ## The stored value at an entry -/

/-- The hidden activations the body forms from its loads, at `(p, f)`. -/
theorem hidden_at (x0 : FVec Ideal S256x1024 .f32) (w : FVec Ideal S8x4096 .bf16) (b : FVec Ideal S1x4096 .f32) (p : Fin 256) (f : Fin 4096) :
    maximumf (addf (matmul dot_S256x8_S8x4096_S256x4096_1_0_0_1_n_n none
        (truncf .bf16 (cos (extractStridedSlice S256x8 ![0, 0] x0 slices_S256x1024_o0_0_S256x8)) bitsLt_bf16_f32 : FVec Ideal S256x8 .bf16)
        w (constant (F := Ideal) S256x4096 .f32 0x00000000#32))
        (broadcastTo S256x4096 b broadcasts_S1x4096_S256x4096))
      (broadcast S256x4096 (Scalar.ofBits (F := Ideal) .f32 0x00000000#32)) (ix2 p f)
      = hiddenUnit (fun k => x0 (ix2 p (lane k))) (fun k => w (ix2 k f)) (b (ix2 0 f)) := by
  rw [maximumf_apply, addf_apply, first_product_at, broadcastTo_1b_ab_apply]
  unfold hiddenUnit
  refine congrArg₂ max (congrArg₂ (· + ·) (Finset.sum_congr rfl fun k _ => ?_) rfl) rfl
  rw [truncf_apply]
  show Ideal.cos (extractStridedSlice S256x8 ![0, 0] x0 slices_S256x1024_o0_0_S256x8 (ix2 p k)) * _ = _
  rw [slice2_axis1_apply 0 x0 slices_S256x1024_o0_0_S256x8 p k (lane k) (Nat.zero_add _).symm]

/-- THE STORED VALUE at `(p, q)`, as the specification's entry of the loaded blocks. -/
theorem stored_at (x0 : Vec Ideal S256x1024 .f32) (x1 : Vec Ideal S8x4096 .bf16) (x2 : Vec Ideal S1x4096 .f32)
    (x3 : Vec Ideal S4096x1024 .bf16) (x4 : Vec Ideal S1x1024 .f32) (p : Fin 256) (q : Fin 1024) :
    k0_pay1 (F := Ideal) x0 x1 x2 x3 x4 (ix2 p q)
      = entry (fun k => x0 (ix2 p (lane k))) (fun f k => x1 (ix2 k f)) (fun f => x2 (ix2 0 f)) (fun f => x3 (ix2 f q)) (x4 (ix2 0 q)) := by
  unfold k0_pay1
  simp only [shapeCast_self]
  rw [addf_apply, second_product_at, broadcastTo_1b_ab_apply]
  unfold entry
  refine congrArg₂ (· + ·) (Finset.sum_congr rfl fun f _ => ?_) rfl
  rw [truncf_apply, hidden_at]

end Cert.KernelIdeal.Payload

end
-- ==== Proof.KernelArray.lean ====
/-
  The kernel's output array after the region.

  Grid point `t` of the 64 works on rows `256·t … 256·t + 255` of the flattened token matrix and writes the same rows
  of the output; the four parameter arrays are fetched whole at every point. So what point `t` writes back is block
  `t` of ONE function of the arrays the region finds: row `n`, column `e` of the output is the specification's entry of
  row `n` of the tokens. The 64 blocks tile the output, so after the run the output array is that function.
-/
import proofs.«135403_j65481071410281_1_alg».proof.Proof.Gen.KernelIdeal.Frame
import proofs.«135403_j65481071410281_1_alg».proof.Proof.KernelPayload

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Payload Cert.FfnSpec

variable (m : (ℓ : Loc nD τ sig) → Buf (Elt Ideal) ℓ) (ρ : Dev nD → PrngReg)

/-- The flattened result: row `n`, column `e` from row `n` of the tokens `X`, the transposed weights and the bias rows. -/
def flat (X : FVec Ideal S16384x1024 .f32) (W1T : FVec Ideal S8x4096 .bf16) (B1 : FVec Ideal S1x4096 .f32)
    (W2T : FVec Ideal S4096x1024 .bf16) (B2 : FVec Ideal S1x1024 .f32) : S16384x1024.Idx → EReal := fun i =>
  entry (fun k => X (ix2 (i 0) (lane k))) (fun f k => W1T (ix2 k f)) (fun f => B1 (ix2 0 f)) (fun f => W2T (ix2 f (i 1))) (B2 (ix2 0 (i 1)))

theorem origin : (![0, 0] : Fin 2 → Nat) = fun _ => 0 := funext fun a => by fin_cases a <;> rfl

/-- The printed index maps over the grid: the token and output windows are at block row `t`, block column 0; the four
    parameter windows stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of `flat` of the arrays as the region finds them. -/
theorem flushed_eq (c : Dev nD) (t : Fin cfg0.N) :
    (dats m 0 c).flushed 5 t
      = ((cfg0.win 5).blk t).view.read (Elt Ideal) (flat (V m c main_v0) (V m c main_v2) (V m c main_v5) (V m c main_v4) (V m c main_v6)) := by
  show (cfg0.win 5).cut (grid0.coords t) ((dats m 0 c).after 5 t) = _
  rw [after0_5]
  unfold out0_5
  rw [View.canon_unit_zero origin]
  simp only [View.ld_unit_zero (S := S256x1024) origin, View.ld_unit_zero (S := S8x4096) origin, View.ld_unit_zero (S := S1x4096) origin,
    View.ld_unit_zero (S := S4096x1024) origin, View.ld_unit_zero (S := S1x1024) origin]
  obtain ⟨e00, e01, e10, e11, e20, e21, e30, e31, e40, e41, e50, e51⟩ := block_indices t
  funext j
  obtain ⟨p, q, rfl⟩ : ∃ (p : Fin 256) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = flat (V m c main_v0) (V m c main_v2) (V m c main_v5) (V m c main_v4) (V m c main_v6) (((cfg0.win 5).blk t).view.emb (ix2 p q))
  refine (stored_at (iblk m c 0 t) (iblk m c 1 t) (iblk m c 2 t) (iblk m c 3 t) (iblk m c 4 t) p q).trans ?_
  unfold flat
  have hp : p.val < 256 := p.isLt
  have hq : q.val < 1024 := q.isLt
  refine entry_congr (fun k => ?_) (fun f k => ?_) (fun f => ?_) (fun f => ?_) ?_
  · show V m c main_v0 (((cfg0.win 0).blk t).view.emb (ix2 p (lane k))) = V m c main_v0 (ix2 ((((cfg0.win 5).blk t).view.emb (ix2 p q)) 0) (lane k))
    refine congrArg (V m c main_v0) (funext fun a => Fin.ext ?_)
    match a with
    | ⟨0, _⟩ => show win0_0.index t (0 : Fin 2) * 256 + 1 * p.val = win0_5.index t (0 : Fin 2) * 256 + 1 * p.val; omega
    | ⟨1, _⟩ => show win0_0.index t (1 : Fin 2) * 1024 + 1 * k.val = k.val; omega
  · show V m c main_v2 (((cfg0.win 1).blk t).view.emb (ix2 k f)) = V m c main_v2 (ix2 k f)
    refine congrArg (V m c main_v2) (funext fun a => Fin.ext ?_)
    match a with
    | ⟨0, _⟩ => show win0_1.index t (0 : Fin 2) * 8 + 1 * k.val = k.val; omega
    | ⟨1, _⟩ => show win0_1.index t (1 : Fin 2) * 4096 + 1 * f.val = f.val; omega
  · show V m c main_v5 (((cfg0.win 2).blk t).view.emb (ix2 0 f)) = V m c main_v5 (ix2 0 f)
    refine congrArg (V m c main_v5) (funext fun a => Fin.ext ?_)
    match a with
    | ⟨0, _⟩ => show win0_2.index t (0 : Fin 2) * 1 + 1 * 0 = 0; omega
    | ⟨1, _⟩ => show win0_2.index t (1 : Fin 2) * 4096 + 1 * f.val = f.val; omega
  · show V m c main_v4 (((cfg0.win 3).blk t).view.emb (ix2 f q)) = V m c main_v4 (ix2 f ((((cfg0.win 5).blk t).view.emb (ix2 p q)) 1))
    refine congrArg (V m c main_v4) (funext fun a => Fin.ext ?_)
    match a with
    | ⟨0, _⟩ => show win0_3.index t (0 : Fin 2) * 4096 + 1 * f.val = f.val; omega
    | ⟨1, _⟩ => show win0_3.index t (1 : Fin 2) * 1024 + 1 * q.val = win0_5.index t (1 : Fin 2) * 1024 + 1 * q.val; omega
  · show V m c main_v6 (((cfg0.win 4).blk t).view.emb (ix2 0 q)) = V m c main_v6 (ix2 0 ((((cfg0.win 5).blk t).view.emb (ix2 p q)) 1))
    refine congrArg (V m c main_v6) (funext fun a => Fin.ext ?_)
    match a with
    | ⟨0, _⟩ => show win0_4.index t (0 : Fin 2) * 1 + 1 * 0 = 0; omega
    | ⟨1, _⟩ => show win0_4.index t (1 : Fin 2) * 1024 + 1 * q.val = win0_5.index t (1 : Fin 2) * 1024 + 1 * q.val; omega

/-- An index of the output array is in point `t`'s block iff each coordinate is in the block's range on its axis. -/
theorem mem_out_block (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v7).slice (win0_5.rect t)).set ↔ _
  rw [View.set_slice_whole, Rect.mem_set_unit]
  exact Iff.rfl

/-- Every row of the output is in the block of the point that is the row's quotient by 256. -/
theorem out_covered (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  let t : Fin cfg0.N := ⟨(i 0).val / 256, lt_of_lt_of_eq (by omega : (i 0).val / 256 < 64) N_0.symm⟩
  obtain ⟨-, -, -, -, -, -, -, -, -, -, e50, e51⟩ := block_indices t
  have ht : t.val = (i 0).val / 256 := rfl
  refine ⟨t, flush0_5 t, ?_⟩
  rw [mem_out_block]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- THE OUTPUT ARRAY after the run is `flat` of the arrays as the region finds them. -/
theorem out_array (c : Dev nD) :
    (dats m 0 c).arrAt 5 cfg0.N = flat (V m c main_v0) (V m c main_v2) (V m c main_v5) (V m c main_v4) (V m c main_v6) :=
  (dats m 0 c).arrAt_eq_of_cover 5 _ (fun t _ => flushed_eq m c t) out_covered

end Cert.KernelIdeal.ArrayValue

end
-- ==== Proof.KernelHost.lean ====
/-
  The host lines around the region.

  Before the region the token array is flattened to 16384 rows, each weight matrix is transposed (and narrowed, which
  changes nothing over the extended reals) and each bias becomes a one-row matrix; after it the output is cut back into
  four batches of 4096 tokens. Read at an entry, the flattened result of the arrays the region finds, reshaped, is the
  specification's result of the argument arrays: row `4096·b + s` of the flattened tokens is token `(b, s)`.
-/
import proofs.«135403_j65481071410281_1_alg».proof.Proof.KernelArray
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen Cert.KernelIdeal.ArrayValue Cert.FfnSpec

variable (m : (ℓ : Loc nD τ sig) → Buf (Elt Ideal) ℓ) (ρ : Dev nD → PrngReg)

/-! ## The arrays the region finds -/

/-- The tokens, flattened to 16384 rows. -/
theorem tokens_found (c : Dev nD) :
    (V m c main_v0 : S16384x1024.Idx → EReal) = shapeCast S16384x1024 (m ((c : Thread nD τ).loc main_arg0)) shapeCasts_S4x4096x1024_S16384x1024 := by
  show StableHlo.after hostOps0 (fun b => m (c, b)) (Proc.devRef .tc main_v0) = _
  after_results
  rfl

/-- The first weight matrix, transposed. -/
theorem w1_found (c : Dev nD) :
    (V m c main_v2 : FVec Ideal S8x4096 .bf16)
      = truncf .bf16 (transpose S8x4096 [1, 0] (m ((c : Thread nD τ).loc main_arg1)) transposes_S4096x8_S8x4096_1_0 : FVec Ideal S8x4096 .f32) bitsLt_bf16_f32 := by
  show StableHlo.after hostOps0 (fun b => m (c, b)) (Proc.devRef .tc main_v2) = _
  after_results

/-- The first bias, as one row. -/
theorem b1_found (c : Dev nD) :
    (V m c main_v5 : S1x4096.Idx → EReal) = shapeCast S1x4096 (m ((c : Thread nD τ).loc main_arg2)) shapeCasts_S4096_S1x4096 := by
  show StableHlo.after hostOps0 (fun b => m (c, b)) (Proc.devRef .tc main_v5) = _
  after_results
  rfl

/-- The second weight matrix, transposed. -/
theorem w2_found (c : Dev nD) :
    (V m c main_v4 : FVec Ideal S4096x1024 .bf16)
      = truncf .bf16 (transpose S4096x1024 [1, 0] (m ((c : Thread nD τ).loc main_arg3)) transposes_S1024x4096_S4096x1024_1_0 : FVec Ideal S4096x1024 .f32) bitsLt_bf16_f32 := by
  show StableHlo.after hostOps0 (fun b => m (c, b)) (Proc.devRef .tc main_v4) = _
  after_results

/-- The second bias, as one row. -/
theorem b2_found (c : Dev nD) :
    (V m c main_v6 : S1x1024.Idx → EReal) = shapeCast S1x1024 (m ((c : Thread nD τ).loc main_arg4)) shapeCasts_S1024_S1x1024 := by
  show StableHlo.after hostOps0 (fun b => m (c, b)) (Proc.devRef .tc main_v6) = _
  after_results
  rfl

/-! ## The flattened result, cut back into batches, is the specification's -/

/-- The flattened row of token `(b, s)`. -/
abbrev row (b : Fin 4) (s : Fin 4096) : Fin 16384 := ⟨b.val * 4096 + s.val, by have := b.isLt; have := s.isLt; omega⟩

theorem result_found (c : Dev nD) :
    shapeCast S4x4096x1024 (flat (V m c main_v0) (V m c main_v2) (V m c main_v5) (V m c main_v4) (V m c main_v6)) shapeCasts_S16384x1024_S4x4096x1024
      = result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, e, rfl⟩ : ∃ (b : Fin 4) (s : Fin 4096) (e : Fin 1024), i = ix3 b s e := ⟨i 0, i 1, i 2, eq_ix3 i⟩
  rw [shapeCast_apply _ shapeCasts_S16384x1024_S4x4096x1024 (ix3 b s e) (ix2 (row b s) e) (by
    rw [Shape.rowMajor_val_two, Shape.rowMajor_val_three]; rfl)]
  unfold flat result
  refine entry_congr (fun k => ?_) (fun f k => ?_) (fun f => ?_) (fun f => ?_) ?_
  · refine (congrFun (tokens_found m c) (ix2 (row b s) (lane k))).trans ?_
    exact shapeCast_apply _ _ (ix2 (row b s) (lane k)) (ix3 b s (lane k)) (by
      rw [Shape.rowMajor_val_three, Shape.rowMajor_val_two]; rfl)
  · refine (congrFun (w1_found m c) (ix2 k f)).trans ?_
    rw [truncf_apply, transpose_ix2_apply]
  · refine (congrFun (b1_found m c) (ix2 0 f)).trans ?_
    rw [shapeCast_a_1a_apply]
  · refine (congrFun (w2_found m c) (ix2 f e)).trans ?_
    rw [truncf_apply, transpose_ix2_apply]
  · refine (congrFun (b2_found m c) (ix2 0 e)).trans ?_
    rw [shapeCast_a_1a_apply]

/-! ## The line after the region, and the run -/

/-- The result buffer is the region's output array, cut back into four batches. -/
theorem tail_found (c : Dev nD) :
    (Pipeline.afterTail₀ cfgs (dats m) 0 (V0 m) [hostOps1] c main_v8 : S4x4096x1024.Idx → EReal)
      = shapeCast S4x4096x1024 ((dats m 0 c).arrAt 5 cfg0.N) shapeCasts_S16384x1024_S4x4096x1024 := by
  unfold Pipeline.afterTail₀
  show StableHlo.after hostOps1 _ (Proc.devRef .tc main_v8) = _
  after_results
  exact congrArg (fun A : S16384x1024.Idx → EReal => shapeCast S4x4096x1024 A shapeCasts_S16384x1024_S4x4096x1024)
    (Pipeline.withArrays_arr spec0 launch0.win.arr_inj c (V0 m c) (fun w => (dats m 0 c).arrAt w cfg0.N) 5)

/-- THE KERNEL'S RUN, read: it ends with the result buffer at the specification's result of the argument arrays, and
    the argument arrays unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans
        ((tail_found m c).trans ((congrArg (fun A : S16384x1024.Idx → EReal => shapeCast S4x4096x1024 A shapeCasts_S16384x1024_S4x4096x1024)
          (out_array m c)).trans (result_found m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostValue

end
-- ==== Proof.ReferenceValue.lean ====
/-
  The reference's result is the specification.

  The reference slices the first eight features off every token, takes their cosines, contracts them with `W1` over the
  feature axis, adds `b1` broadcast along the hidden axis, rectifies against a zero broadcast from a scalar, contracts
  with `W2` over the hidden axis and adds `b2` broadcast along the output axis. Read at an entry `(b, s, e)`, stage by
  stage, that is the specification's entry; all that is to be checked is where each stage reads its operand.
-/
import proofs.«135403_j65481071410281_1_alg».proof.Proof.Gen.ReferenceIdeal.Read
import proofs.«135403_j65481071410281_1_alg».proof.Proof.Spec

noncomputable section

namespace Cert.ReferenceIdeal.RefValue

open Idealize.ShloMosaic Idealize.ShloMosaic.ValueIdx Cert.ReferenceIdeal Cert.ReferenceIdeal.Read Cert.FfnSpec

/-- Hidden unit `f` of the token of entry `i`, as the first contraction's operand index. -/
theorem hidden_index (b : Fin 4) (s : Fin 4096) (e : Fin 1024) (f : Fin 4096) : lidx_main_v7 (ix3 b s e) f = ix3 b s f :=
  funext fun a => Fin.ext (by match a with | ⟨0, _⟩ => rfl | ⟨1, _⟩ => rfl | ⟨2, _⟩ => rfl)

/-- Feature `k` of token `(b, s)`, through the first contraction and the slice. -/
theorem feature_index (b : Fin 4) (s : Fin 4096) (f : Fin 4096) (k : Fin 8) :
    idx_main_v0 (lidx_main_v2 (ix3 b s f) k) = ix3 b s (lane k) :=
  funext fun a => Fin.ext (by match a with | ⟨0, _⟩ => rfl | ⟨1, _⟩ => rfl | ⟨2, _⟩ => rfl)

/-- The first weight matrix is read at `(f, k)`. -/
theorem w1_index (b : Fin 4) (s : Fin 4096) (f : Fin 4096) (k : Fin 8) : ridx_main_v2 (ix3 b s f) k = ix2 f k :=
  funext fun a => Fin.ext (by match a with | ⟨0, _⟩ => rfl | ⟨1, _⟩ => rfl)

/-- The first bias is read at `f`, through its two broadcasts. -/
theorem b1_index (b : Fin 4) (s : Fin 4096) (f : Fin 4096) : idx_main_v3 (idx_main_v4 (ix3 b s f)) = ix1 f :=
  funext fun a => Fin.ext (by match a with | ⟨0, _⟩ => rfl)

/-- The second weight matrix is read at `(e, f)`. -/
theorem w2_index (b : Fin 4) (s : Fin 4096) (e : Fin 1024) (f : Fin 4096) : ridx_main_v7 (ix3 b s e) f = ix2 e f :=
  funext fun a => Fin.ext (by match a with | ⟨0, _⟩ => rfl | ⟨1, _⟩ => rfl)

/-- The second bias is read at `e`, through its two broadcasts. -/
theorem b2_index (b : Fin 4) (s : Fin 4096) (e : Fin 1024) : idx_main_v8 (idx_main_v9 (ix3 b s e)) = ix1 e :=
  funext fun a => Fin.ext (by match a with | ⟨0, _⟩ => rfl)

/-- The rectified first layer at `(b, s, f)` is the specification's hidden unit. -/
theorem hidden_stage (x0 : (⟨S4x4096x1024, .f32⟩ : BufTy).Contents (Elt Ideal)) (x1 : (⟨S4096x8, .f32⟩ : BufTy).Contents (Elt Ideal))
    (x2 : (⟨S4096, .f32⟩ : BufTy).Contents (Elt Ideal)) (b : Fin 4) (s : Fin 4096) (f : Fin 4096) :
    val_main_v6 (F := Ideal) x0 x1 x2 (ix3 b s f)
      = hiddenUnit (fun k => x0 (ix3 b s (lane k))) (fun k => x1 (ix2 f k)) (x2 (ix1 f)) := by
  rw [val_main_v6_apply, val_main_v5_apply, val_main_v2_apply, val_main_v4_apply, val_main_v3_apply,
    val_main_call0_v0_apply, val_main_call0_cst_apply, b1_index]
  unfold hiddenUnit
  refine congrArg₂ max (congrArg₂ (· + ·) (Finset.sum_congr rfl fun k _ => ?_) rfl) rfl
  rw [val_main_v1_apply, val_main_v0_apply, feature_index, w1_index]
  rfl

/-- THE REFERENCE'S RESULT, stage by stage, is the specification's. -/
theorem reference_is_result (x0 : (⟨S4x4096x1024, .f32⟩ : BufTy).Contents (Elt Ideal)) (x1 : (⟨S4096x8, .f32⟩ : BufTy).Contents (Elt Ideal))
    (x2 : (⟨S4096, .f32⟩ : BufTy).Contents (Elt Ideal)) (x3 : (⟨S1024x4096, .f32⟩ : BufTy).Contents (Elt Ideal))
    (x4 : (⟨S1024, .f32⟩ : BufTy).Contents (Elt Ideal)) :
    val_main_v10 (F := Ideal) x0 x1 x2 x3 x4 = result x0 x1 x2 x3 x4 := by
  funext i
  obtain ⟨b, s, e, rfl⟩ : ∃ (b : Fin 4) (s : Fin 4096) (e : Fin 1024), i = ix3 b s e := ⟨i 0, i 1, i 2, eq_ix3 i⟩
  rw [val_main_v10_apply, val_main_v7_apply, val_main_v9_apply, val_main_v8_apply, b2_index]
  show (∑ f : Fin 4096, val_main_v6 (F := Ideal) x0 x1 x2 (lidx_main_v7 (ix3 b s e) f) * x3 (ridx_main_v7 (ix3 b s e) f)) + x4 (ix1 e)
    = entry (fun k => x0 (ix3 b s (lane k))) (fun f k => x1 (ix2 f k)) (fun f => x2 (ix1 f)) (fun f => x3 (ix2 e f)) (x4 (ix1 e))
  unfold entry
  refine congrArg₂ (· + ·) (Finset.sum_congr rfl fun f _ => ?_) rfl
  rw [hidden_index, hidden_stage, w2_index]

end Cert.ReferenceIdeal.RefValue

end
-- ==== Proof.lean ====
/-
  A feed-forward block on cosine features: the kernel against its reference.

  Both programs take tokens `x : [4, 4096, 1024]`, weights `W1 : [4096, 8]`, `W2 : [1024, 4096]` and biases
  `b1 : [4096]`, `b2 : [1024]`, and compute, for token `(b, s)` and output feature `e`,

      (∑_f max ((∑_k cos (x[b, s, k]) · W1[f, k]) + b1[f], 0) · W2[e, f]) + b2[e],     k < 8, f < 4096.

  The reference does it with two contractions over the arrays as given. The kernel flattens the tokens to 16384 rows,
  transposes the weights, and runs 64 grid points of 256 rows each, every point two matrix products into zero
  accumulators with the casts to a narrower float in between; over the extended reals those casts are the identity
  and a product into zero is the plain sum over the contracted axis, so both sides are the same sums of the same
  products and no law beyond reading each array at the right index is needed: the precondition is never opened.

  The frames of the two kernel programs are the generated ones; the reference's frame is its generated run with the
  result dropped; the idealization rewrote nothing, so `preserves` is trivial; `algebraic` pairs the kernel's run
  (the output array after the region, cut back into batches) with the reference's run, both at the specification's
  result (Proof/Spec.lean).
-/
import proofs.«135403_j65481071410281_1_alg».proof.Defs
import proofs.«135403_j65481071410281_1_alg».proof.Proof.Gen.Kernel
import proofs.«135403_j65481071410281_1_alg».proof.Proof.Gen.Kernel.Skeleton
import proofs.«135403_j65481071410281_1_alg».proof.Proof.Gen.Kernel.Launch
import proofs.«135403_j65481071410281_1_alg».proof.Proof.Gen.Kernel.Points
import proofs.«135403_j65481071410281_1_alg».proof.Proof.Gen.Kernel.Frame
import proofs.«135403_j65481071410281_1_alg».proof.Proof.Gen.KernelIdeal
import proofs.«135403_j65481071410281_1_alg».proof.Proof.Gen.KernelIdeal.Skeleton
import proofs.«135403_j65481071410281_1_alg».proof.Proof.Gen.KernelIdeal.Launch
import proofs.«135403_j65481071410281_1_alg».proof.Proof.Gen.KernelIdeal.Points
import proofs.«135403_j65481071410281_1_alg».proof.Proof.Gen.KernelIdeal.Frame
import proofs.«135403_j65481071410281_1_alg».proof.Proof.Gen.ReferenceIdeal
import proofs.«135403_j65481071410281_1_alg».proof.Proof.Gen.Pre_finite_inputs
import proofs.«135403_j65481071410281_1_alg».proof.Proof.Gen.ReferenceIdeal.Run
import proofs.«135403_j65481071410281_1_alg».proof.Proof.Gen.ReferenceIdeal.Read
import proofs.«135403_j65481071410281_1_alg».proof.Proof.KernelHost
import proofs.«135403_j65481071410281_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result buffer at the specification's result of the kernel's argument arrays: the kernel's by
    its output array read after the region, the reference's by its stages read at an entry, its arguments being the
    kernel's. -/
theorem algebraic : Cert.algebraic_KernelIdeal_ReferenceIdeal := by
  intro m ρ m' ρ' _ hagree
  refine ⟨fun c => Cert.FfnSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_is_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
